-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x2048x1024 .f32) (main_arg1 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S8x2048x1024 : Shape := ⟨3, ![8, 2048, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1x512x1024, .f32⟩
  | .local _ .vmem, ⟨4, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x2048x1024.size a
  hwx0_2 : ∀ i : grid0.Coords, EltTy.bits .f32 = 32 ∨ (Rect.block (s := S8x2048x1024) S1x512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S8x2048x1024, .f32⟩
  | .hbm, ⟨3, _⟩ => ⟨S8x2048x1024, .f32⟩
  | .hbm, ⟨4, _⟩ => ⟨S_, .f32⟩
  | .hbm, ⟨5, _⟩ => ⟨S8x2048x1024, .f32⟩
  | .hbm, ⟨6, _⟩ => ⟨S8x2048x1024, .i1⟩
  | .hbm, ⟨7, _⟩ => ⟨S8x2048x1024, .f32⟩
  | .hbm, ⟨8, _⟩ => ⟨S_, .f32⟩
  | .hbm, ⟨9, _⟩ => ⟨S8x2048x1024, .f32⟩
  | .hbm, ⟨10, _⟩ => ⟨S8x2048x1024, .f32⟩
  | .hbm, ⟨11, _⟩ => ⟨S_, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S_S8x2048x1024 : S_.BroadcastsInDim S8x2048x1024 (![] : Fin 0 → Fin S8x2048x1024.rank)
  dot_S8x2048x1024_S1024x1024_S8x2048x1024_2_0_01_1_n_n_wf : DotDims.WF S8x2048x1024 S1024x1024 S8x2048x1024 [2] [0] [0, 1] [1] [] []

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf

class Facts : Prop extends Facts₀ where

variable [Facts]
-- ==== Proof.LogMatmulSpec.lean ====
/-
  The function both programs compute, as one term over the extended reals.

  For `x : [8, 2048, 1024]` and `M : [1024, 1024]` write `y (b, s, n) = ∑ k, x (b, s, k) · M (k, n)` for the batched
  matrix product and `ε` for the smallest positive normal single-precision number. The result at `(b, s, n)` is
  `log (max (y (b, s, n)) ε)`.

  One side computes exactly this. The other side splits the logarithm by the sign of `y`: with the indicator
  `β = [y > 0] ∈ {0, 1}` it forms `L · β + L · (1 - β)`, where `L = log (max y ε)`. Since `β` is `0` or `1`, one of the
  two summands is `L · 1 = L` and the other is `L · 0 = 0`; that holds for EVERY extended real `L` (the product of
  an infinity with `0` is `0` on the extended reals, and `1 - 1 = 0`, `1 - 0 = 1` are differences of reals), so no
  finiteness of the inputs is needed: `split_by_indicator`.
-/
import Idealize.ShloMosaic.PureOps.Ideal
import Idealize.ShloMosaic.PureOps.Ideal.Laws
import Idealize.ShloMosaic.PureOps.IdealRules
import Idealize.ShloMosaic.Lib.ValueIdx

noncomputable section

open Idealize.ShloMosaic Idealize.ShloMosaic.ValueIdx
open scoped BigOperators

namespace Cert.LogMatmul

/-- The shape of `x` and of the result: batch × rows × columns. -/
abbrev Sx : Shape := ⟨3, ![8, 2048, 1024]⟩
/-- The shape of the matrix: contraction × columns. -/
abbrev Sm : Shape := ⟨2, ![1024, 1024]⟩

/-- Entry `(b, s, n)` of the batched product `x · M`: the sum over the contraction index of the products. -/
def contraction (x : Sx.Idx → EReal) (M : Sm.Idx → EReal) (b : Fin 8) (s : Fin 2048) (n : Fin 1024) : EReal :=
  ∑ k : Fin 1024, x (ix3 b s k) * M (ix2 k n)

/-- The result array: the logarithm of the product clamped below at the smallest positive normal number. -/
def logClampedProduct (x : Sx.Idx → EReal) (M : Sm.Idx → EReal) : Sx.Idx → EReal := fun i =>
  Ideal.log (max (contraction x M (i 0) (i 1) (i 2)) (Ideal.ofBits .f32 0x00800000#32))

/-- The word of `1.0` denotes the extended real `1`. -/
theorem one_word : Ideal.ofBits .f32 0x3F800000#32 = 1 := IdealRules.sign_bit.ideal_onePat .f32

/-- A one-bit word read as an unsigned number is `0` or `1`. -/
theorem bit_cases (β : BitVec 1) : β = 0#1 ∨ β = 1#1 := by
  by_cases h : β = 1#1
  · exact Or.inr h
  · exact Or.inl (eq_zero_of_ne_one h)

/-- Splitting a value by an indicator and adding the two parts gives the value back, at every extended real:
    `L · β + L · (1 - β) = L` for `β ∈ {0, 1}`. -/
theorem split_by_indicator (L : EReal) (β : BitVec 1) :
    L * ((β.toNat : ℝ) : EReal) + L * ((1 : EReal) - ((β.toNat : ℝ) : EReal)) = L := by
  rcases bit_cases β with h | h
  · subst h
    have h0 : (((0#1 : BitVec 1).toNat : ℝ) : EReal) = 0 := by simp
    rw [h0, mul_zero, zero_add, sub_zero, mul_one]
  · subst h
    have h1 : (((1#1 : BitVec 1).toNat : ℝ) : EReal) = 1 := by simp
    have h2 : (1 : EReal) - 1 = 0 := by
      rw [← EReal.coe_one, ← EReal.coe_sub, sub_self, EReal.coe_zero]
    rw [h1, h2, mul_one, mul_zero, add_zero]

end Cert.LogMatmul

end
-- ==== Proof.KernelPayload.lean ====
/-
  What the kernel's body stores, read at an index.

  The body loads a `[1, 512, 1024]` block of `x` and the whole `[1024, 1024]` matrix, drops the unit axis, multiplies
  the two (the change of format before the product is the identity on the extended reals, and the accumulator it
  adds into is zero), clamps below at `ε`, takes the logarithm and puts the unit axis back. So at `(u, r, n)` the
  stored value is `log (max (∑ k, block (0, r, k) · M (k, n)) ε)`.
-/
import proofs.«143208_j19490561589867_1_alg».proof.Proof.Gen.KernelIdeal.Skeleton
import Idealize.ShloMosaic.PureOps.Ideal.Laws
import Idealize.ShloMosaic.Lib.ValueIdx
import Idealize.ShloMosaic.Lib.ValueLayout
import proofs.«143208_j19490561589867_1_alg».proof.Proof.LogMatmulSpec

noncomputable section

open Idealize.ShloMosaic Idealize.ShloMosaic.ValueIdx
open scoped BigOperators

namespace Cert.LogMatmul.Kernel

open Cert.KernelIdeal Cert.KernelIdeal.Gen Cert.LogMatmul

/-! ## The operand indices of the `[512, 1024] × [1024, 1024]` product, axis by axis -/

theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl

theorem lhs_col (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q

theorem rhs_row (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a `[512, 1024]` block and the matrix into a zero accumulator, at `(r, n)`: the sum over the
    contraction index of row `r` of the block against column `n` of the matrix. -/
theorem product_apply (A : FVec Ideal S512x1024 .bf16) (B : FVec Ideal S1024x1024 .bf16) (r : Fin 512) (n : Fin 1024) :
    matmul dot_S512x1024_S1024x1024_S512x1024_1_0_0_1_n_n none A B (constant S512x1024 .f32 0x00000000#32) (ix2 r n)
      = ∑ k : Fin 1024, A (ix2 r k) * B (ix2 k n) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r n) ((ValueIdx.contrEquiv1 dot_S512x1024_S1024x1024_S512x1024_1_0_0_1_n_n 1024 rfl rfl).symm k) = ix2 r k := funext fun a => Fin.ext (by
    match a with
    | ⟨0, _⟩ => exact lhs_row _ _
    | ⟨1, _⟩ => exact (lhs_col _ _).trans hk)
  have er : dot_S512x1024_S1024x1024_S512x1024_1_0_0_1_n_n.rhsIdx (ix2 r n) ((ValueIdx.contrEquiv1 dot_S512x1024_S1024x1024_S512x1024_1_0_0_1_n_n 1024 rfl rfl).symm k) = ix2 k n := funext fun a => Fin.ext (by
    match a with
    | ⟨0, _⟩ => exact (rhs_row _ _).trans hk
    | ⟨1, _⟩ => exact rhs_col _ _)
  rw [el, er]

/-- The stored value at `(u, r, n)`: the logarithm of the clamped product of row `r` of the loaded block with
    column `n` of the matrix. -/
theorem payload_apply (blk : Vec Ideal S1x512x1024 .f32) (mat : Vec Ideal S1024x1024 .f32) (u : Fin 1) (r : Fin 512) (n : Fin 1024) :
    k0_pay1 (F := Ideal) blk mat (ix3 u r n)
      = Ideal.log (max (∑ k : Fin 1024, blk (ix3 (0 : Fin 1) r k) * mat (ix2 k n)) (Ideal.ofBits .f32 0x00800000#32)) := by
  unfold k0_pay1
  refine (shapeCast_ab_1ab_apply _ _ u r n).trans ?_
  show Ideal.log (max (matmul (F := Ideal) dot_S512x1024_S1024x1024_S512x1024_1_0_0_1_n_n none
        (truncf (F := Ideal) .bf16 (shapeCast S512x1024 blk shapeCasts_S1x512x1024_S512x1024) bitsLt_bf16_f32)
        (truncf (F := Ideal) .bf16 mat bitsLt_bf16_f32) (constant (F := Ideal) S512x1024 .f32 0x00000000#32) (ix2 r n))
      (Ideal.ofBits .f32 0x00800000#32)) = _
  refine congrArg (fun y => Ideal.log (max y (Ideal.ofBits .f32 0x00800000#32))) ?_
  refine (product_apply _ _ r n).trans ?_
  refine Finset.sum_congr rfl fun k _ => ?_
  show shapeCast S512x1024 blk shapeCasts_S1x512x1024_S512x1024 (ix2 r k) * mat (ix2 k n) = _
  exact congrArg (· * mat (ix2 k n)) (shapeCast_1ab_ab_apply blk _ r k)

/-- The stored value at a block index `j` is the result function at an array index `i`, for any block and array
    contents such that row `j 1` of the block is row `(i 0, i 1)` of the array `X` and column `j 2` of the loaded
    matrix is column `i 2` of the array `Mt`: both are then the logarithm of the same clamped sum. -/
theorem point_value (X : Sx.Idx → EReal) (Mt : Sm.Idx → EReal) (blk : Vec Ideal S1x512x1024 .f32) (mat : Vec Ideal S1024x1024 .f32)
    (j : S1x512x1024.Idx) (i : S8x2048x1024.Idx)
    (hrow : ∀ k : Fin 1024, blk (ix3 (0 : Fin 1) (j 1) k) = X (ix3 (i 0) (i 1) k))
    (hcol : ∀ k : Fin 1024, mat (ix2 k (j 2)) = Mt (ix2 k (i 2))) :
    k0_pay1 (F := Ideal) blk mat j = logClampedProduct X Mt i := by
  obtain ⟨u, r, n, rfl⟩ : ∃ (u : Fin 1) (r : Fin 512) (n : Fin 1024), j = ix3 u r n := ⟨j 0, j 1, j 2, eq_ix3 j⟩
  refine (payload_apply blk mat u r n).trans ?_
  unfold logClampedProduct contraction
  refine congrArg (fun y => Ideal.log (max y (Ideal.ofBits .f32 0x00800000#32))) ?_
  refine Finset.sum_congr rfl fun k _ => ?_
  have h1 : blk (ix3 (0 : Fin 1) r k) = X (ix3 (i 0) (i 1) k) := hrow k
  have h2 : mat (ix2 k n) = Mt (ix2 k (i 2)) := hcol k
  rw [h1, h2]

end Cert.LogMatmul.Kernel

end
-- ==== Proof.KernelValue.lean ====
/-
  The kernel's output array after the run, as one function of the argument arrays.

  The grid has 8 × 4 points. Point `(b, s)` reads the `[1, 512, 1024]` block `(b, s, 0)` of `x` (rows `512 s …
  512 s + 511` of batch `b`) and the whole matrix, and writes the block `(b, s, 0)` of the output. A block's array
  index is always block index × block size + the index inside the block, so row `r` of the point's input block is
  row `(b, 512 s + r)` of `x`, which is the row the output index it writes belongs to; hence what the point
  writes back is the result function read through the point's output block (`written_back`). The 32 output blocks
  tile the `[8, 2048, 1024]` array — index `(b, q, n)` lies in the block of the point with block index
  `(b, q / 512, 0)` — so the array ends holding the result function everywhere (`output_array`).
-/
import proofs.«143208_j19490561589867_1_alg».proof.Proof.Gen.KernelIdeal.Value
import proofs.«143208_j19490561589867_1_alg».proof.Proof.KernelPayload

noncomputable section

namespace Cert.LogMatmul.KernelRun

open Cert.KernelIdeal Cert.KernelIdeal.Gen Cert.KernelIdeal.Value Idealize.ShloMosaic Idealize.ShloMosaic.TcCoe Idealize.SL.Sem
open Idealize.ShloMosaic.ValueIdx Cert.LogMatmul
open Idealize.ShloMosaic.Pipeline (Dat)

variable (m : (ℓ : Loc nD τ sig) → Buf (Elt Ideal) ℓ) (ρ : Dev nD → PrngReg)

theorem offsets3 : (![0, 0, 0] : Fin 3 → Nat) = fun _ => 0 := funext fun a => by fin_cases a <;> rfl
theorem offsets2 : (![0, 0] : Fin 2 → Nat) = fun _ => 0 := funext fun a => by fin_cases a <;> rfl

/-- The block indices, decided over the 32 grid points: the input block of `x` moves with the output block on the
    batch and row axes and is the only block along the contraction axis; the matrix has one block; the output's block
    index is `(b, s, 0)` with `b ≤ 7`, `s ≤ 3`. -/
theorem block_indices : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 2) = 0
    ∧ win0_1.index t (1 : Fin 2) = 0
    ∧ win0_2.index t (0 : Fin 3) ≤ 7
    ∧ win0_2.index t (1 : Fin 3) ≤ 3
    ∧ win0_2.index t (2 : Fin 3) = 0 :=
  (by decide +kernel : ∀ t : Fin grid0.N, _)

/-- Every output block `(b, s, 0)` is some grid point's. -/
theorem block_onto : ∀ (b : Fin 8) (s : Fin 4), ∃ t : Fin cfg0.N, win0_2.index t = ![b.val, s.val, 0] :=
  (by decide +kernel : ∀ (b : Fin 8) (s : Fin 4), ∃ t : Fin grid0.N, win0_2.index t = ![b.val, s.val, 0])

/-- What grid point `t` writes back is the result function of the argument arrays, read through the point's
    output block. -/
theorem written_back (c : Dev nD) (t : Fin cfg0.N) :
    (dats m 0 c).flushed 2 t
      = ((cfg0.win 2).blk t).view.read (Elt Ideal) (logClampedProduct (V m c main_arg0) (V m c main_arg1)) := by
  rw [flushed2]
  unfold out0_2
  rw [View.canon_unit_zero offsets3]
  simp only [View.ld_unit_zero (S := S1x512x1024) offsets3, View.ld_unit_zero (S := S1024x1024) offsets2]
  obtain ⟨e0, e1, e2, e3, e4, -, -, e7⟩ := block_indices t
  funext j
  show k0_pay1 (F := Ideal) (iblk m c 0 t) (iblk m c 1 t) j
    = logClampedProduct (V m c main_arg0) (V m c main_arg1) (((cfg0.win 2).blk t).view.emb j)
  refine Kernel.point_value (V m c main_arg0) (V m c main_arg1) (iblk m c 0 t) (iblk m c 1 t) j
    (((cfg0.win 2).blk t).view.emb j) (fun k => ?_) (fun k => ?_)
  · show V m c main_arg0 (((cfg0.win 0).blk t).view.emb (ix3 (0 : Fin 1) (j 1) k)) = _
    refine congrArg (V m c main_arg0) ?_
    funext a; apply Fin.ext
    match a with
    | ⟨0, _⟩ => show win0_0.index t (0 : Fin 3) * 1 + 1 * 0 = win0_2.index t (0 : Fin 3) * 1 + 1 * (j 0).val; have hj : (j 0).val < 1 := (j 0).isLt; omega
    | ⟨1, _⟩ => show win0_0.index t (1 : Fin 3) * 512 + 1 * (j 1).val = win0_2.index t (1 : Fin 3) * 512 + 1 * (j 1).val; omega
    | ⟨2, _⟩ => show win0_0.index t (2 : Fin 3) * 1024 + 1 * k.val = k.val; omega
  · show V m c main_arg1 (((cfg0.win 1).blk t).view.emb (ix2 k (j 2))) = _
    refine congrArg (V m c main_arg1) ?_
    funext a; apply Fin.ext
    match a with
    | ⟨0, _⟩ => show win0_1.index t (0 : Fin 2) * 1024 + 1 * k.val = k.val; omega
    | ⟨1, _⟩ => show win0_1.index t (1 : Fin 2) * 1024 + 1 * (j 2).val = win0_2.index t (2 : Fin 3) * 1024 + 1 * (j 2).val; omega

/-- An index of the output array is in point `t`'s block iff each coordinate is in the block's range on its axis. -/
theorem mem_block (t : Fin cfg0.N) (i : S8x2048x1024.Idx) :
    i ∈ ((cfg0.win 2).blk t).view.set ↔ ∀ a : Fin 3, win0_2.index t a * S1x512x1024.size a ≤ (i a).val ∧ (i a).val < win0_2.index t a * S1x512x1024.size a + S1x512x1024.size a := by
  show i ∈ ((View.whole main_v0).slice (win0_2.rect t)).set ↔ _
  rw [View.set_slice_whole, Rect.mem_set_unit]
  exact Iff.rfl

/-- The output blocks tile the array: index `(b, q, n)` lies in the block of the point whose block index is
    `(b, q / 512, 0)`. -/
theorem blocks_cover (i : S8x2048x1024.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 1024 := (i 2).isLt
  obtain ⟨t, ht⟩ := block_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- The output array after the run is the result function of the argument arrays as launched. -/
theorem output_array (c : Dev nD) :
    (dats m 0 c).arrAt 2 cfg0.N
      = logClampedProduct (m ((c : Thread nD τ).loc main_arg0)) (m ((c : Thread nD τ).loc main_arg1)) :=
  (dats m 0 c).arrAt_eq_of_cover 2 (logClampedProduct (V m c main_arg0) (V m c main_arg1))
    (fun t _ => written_back m c t) blocks_cover

/-- The kernel's run, re-posted: the output array at the result function of the arguments, the arguments unchanged. -/
theorem run : θ_run defs (onTc (τ := τ) (main (F := Ideal))) ⟨m, fun _ => 0, ρ⟩ fun r => ∀ c : Dev nD,
      r.2.mem ((c : Thread nD τ).loc main_v0)
        = logClampedProduct (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (output_array m c), (h c).2⟩) (run_blocks m ρ)

end Cert.LogMatmul.KernelRun

end
-- ==== Proof.ReferenceValue.lean ====
/-
  The reference's result, read index by index, is the logarithm of the clamped product.

  The reference forms the batched product `y` twice (the same term), the indicator `β = [y > 0]` as a float,
  `L = log (max y ε)` twice (the same term), and returns `L · β + L · (1 - β)`. At an index each stage reads its
  operands at that index; the two contractions are the sum over `k` of `x (b, s, k) · M (k, n)`; and the sum of
  the two parts is `L` by `split_by_indicator`, whatever the indicator is.
-/
import proofs.«143208_j19490561589867_1_alg».proof.Proof.Gen.ReferenceIdeal.Read
import proofs.«143208_j19490561589867_1_alg».proof.Proof.LogMatmulSpec

noncomputable section

open Idealize.ShloMosaic Idealize.ShloMosaic.ValueIdx
open scoped BigOperators

namespace Cert.LogMatmul.Reference

open Cert.ReferenceIdeal Cert.ReferenceIdeal.Read Cert.LogMatmul

/-- The left operand's index in the product at output `i` and contraction `k`: batch and row of `i`, column `k`. -/
theorem left_index (i : S8x2048x1024.Idx) (k : Fin 1024) : lidx_main_v0 i k = ix3 (i 0) (i 1) k :=
  funext fun a => Fin.ext (by match a with | ⟨0, _⟩ => rfl | ⟨1, _⟩ => rfl | ⟨2, _⟩ => rfl)

/-- The right operand's index: row `k`, the column of `i`. -/
theorem right_index (i : S8x2048x1024.Idx) (k : Fin 1024) : ridx_main_v0 i k = ix2 k (i 2) :=
  funext fun a => Fin.ext (by match a with | ⟨0, _⟩ => rfl | ⟨1, _⟩ => rfl)

/-- The first product stage at an index is the contraction. -/
theorem product_apply (x : Sx.Idx → EReal) (M : Sm.Idx → EReal) (i : S8x2048x1024.Idx) :
    val_main_v0 (F := Ideal) x M i = contraction x M (i 0) (i 1) (i 2) := by
  rw [val_main_v0_apply]
  unfold contraction
  exact Finset.sum_congr rfl fun k _ => by rw [left_index, right_index]; rfl

/-- The second product stage is the same term as the first. -/
theorem product_twice (x : Sx.Idx → EReal) (M : Sm.Idx → EReal) :
    val_main_v1 (F := Ideal) x M = val_main_v0 (F := Ideal) x M := rfl

/-- The reference's result array is the logarithm of the clamped product, at every index. -/
theorem result_eq (x : Sx.Idx → EReal) (M : Sm.Idx → EReal) :
    val_main_v15 (F := Ideal) x M = logClampedProduct x M := by
  funext i
  rw [val_main_v15_apply, val_main_v10_apply, val_main_v14_apply, val_main_v9_apply, val_main_v13_apply,
    val_main_v8_apply, val_main_v12_apply, val_main_v6_apply, val_main_v4_apply, val_main_v5_apply,
    val_main_v7_apply, val_main_v11_apply, val_main_cst_0_apply, val_main_cst_1_apply, val_main_cst_2_apply,
    product_twice, product_apply]
  show Ideal.log (max (contraction x M (i 0) (i 1) (i 2)) (Ideal.ofBits .f32 0x00800000#32))
        * (((val_main_v3 (F := Ideal) x M i).toNat : ℝ) : EReal)
      + Ideal.log (max (contraction x M (i 0) (i 1) (i 2)) (Ideal.ofBits .f32 0x00800000#32))
        * (Ideal.ofBits .f32 0x3F800000#32 - (((val_main_v3 (F := Ideal) x M i).toNat : ℝ) : EReal))
      = _
  rw [one_word]
  exact split_by_indicator _ _

end Cert.LogMatmul.Reference

end
-- ==== Proof.lean ====
/-
  The kernel against its reference, over the extended reals.

  Both programs take `x : [8, 2048, 1024]` and `M : [1024, 1024]`. With `y = x · M` (the batched product, a sum over
  the contraction index at each output position) and `ε` the smallest positive normal single-precision number:

  * the kernel computes, block of 512 rows by block, `log (max y ε)` — the change of float format before its
    product is the identity on the extended reals, and it accumulates into zero;
  * the reference computes `y` on the host, the indicator `β = [y > 0]` as a float, `L = log (max y ε)`, and
    returns `L · β + L · (1 - β)`.

  Since `β` is `0` or `1`, one of the two summands is `L` and the other is `L · 0 = 0`, at every extended real `L`,
  so the two results are equal index by index; the inputs' finiteness is not used. The ideal pass rewrote nothing
  in the kernel, so the statement that the idealized kernel is the kernel's sanctioned idealization has no conjunct.

  Modules: `LogMatmulSpec` (the result function and the indicator law), `ReferenceValue` (the reference's result is
  that function), `KernelPayload` (what the body stores, at an index), `KernelValue` (the kernel's output array is
  that function).
-/
import proofs.«143208_j19490561589867_1_alg».proof.Defs
import proofs.«143208_j19490561589867_1_alg».proof.Proof.Gen.Kernel
import proofs.«143208_j19490561589867_1_alg».proof.Proof.Gen.Kernel.Skeleton
import proofs.«143208_j19490561589867_1_alg».proof.Proof.Gen.Kernel.Launch
import proofs.«143208_j19490561589867_1_alg».proof.Proof.Gen.Kernel.Points
import proofs.«143208_j19490561589867_1_alg».proof.Proof.Gen.Kernel.Frame
import proofs.«143208_j19490561589867_1_alg».proof.Proof.Gen.KernelIdeal
import proofs.«143208_j19490561589867_1_alg».proof.Proof.Gen.KernelIdeal.Skeleton
import proofs.«143208_j19490561589867_1_alg».proof.Proof.Gen.KernelIdeal.Launch
import proofs.«143208_j19490561589867_1_alg».proof.Proof.Gen.KernelIdeal.Points
import proofs.«143208_j19490561589867_1_alg».proof.Proof.Gen.KernelIdeal.Frame
import proofs.«143208_j19490561589867_1_alg».proof.Proof.Gen.ReferenceIdeal
import proofs.«143208_j19490561589867_1_alg».proof.Proof.Gen.KernelIdeal.Value
import proofs.«143208_j19490561589867_1_alg».proof.Proof.Gen.ReferenceIdeal.Run
import proofs.«143208_j19490561589867_1_alg».proof.Proof.Gen.ReferenceIdeal.Read
import proofs.«143208_j19490561589867_1_alg».proof.Proof.Gen.Pre_finite_inputs
import proofs.«143208_j19490561589867_1_alg».proof.Proof.KernelValue
import proofs.«143208_j19490561589867_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a sequence of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x` and `M`, both programs end with the logarithm of the clamped product in their
    result arrays: the kernel by its blocks, the reference by the indicator law. -/
theorem algebraic : Cert.algebraic_KernelIdeal_ReferenceIdeal := by
  intro m ρ m' ρ' _ hagree
  refine ⟨fun c => Cert.LogMatmul.logClampedProduct (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.LogMatmul.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.LogMatmul.Reference.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
